-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg11 : FVec F S128 .f32) (main_arg12 : FVec F S128x128 .f32) (main_arg13 : FVec F S128x128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128x128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_v33

def fn {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg8 main_arg9 main_arg10 main_arg11 main_arg12 main_arg13 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S2000x128 : Shape := ⟨2, ![2000, 128]⟩
abbrev S1x128 : Shape := ⟨2, ![1, 128]⟩

abbrev nBuf : Space → Nat
  | .hbm => 72
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S50000x128, .f32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S_, .f32⟩
  | .hbm, ⟨53, _⟩ => ⟨S600000, .f32⟩
  | .hbm, ⟨54, _⟩ => ⟨S_, .f32⟩
  | .hbm, ⟨55, _⟩ => ⟨S50000, .f32⟩
  | .hbm, ⟨56, _⟩ => ⟨S600000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S128x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_cst_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42_0 : Ref sig .tc := ⟨.hbm, 68, rfl⟩
abbrev main_v42_1 : Ref sig .tc := ⟨.hbm, 69, rfl⟩
abbrev main_v42_2 : Ref sig .tc := ⟨.hbm, 70, rfl⟩
abbrev main_v42_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128_S128_0 : ∀ a, (![0] : Fin 1 → Nat) a + S128.size a ≤ S128.size a
  h_S128 : 0 < S128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S128_S1x128 : S128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S50000x128.size a
  hwx0_13 : ∀ i : grid0.Coords, EltTy.bits .f32 = 32 ∨ (Rect.block (s := S50000x128) S2000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S50000x128.size a
  hwx0_14 : ∀ i : grid0.Coords, EltTy.bits .f32 = 32 ∨ (Rect.block (s := S50000x128) S2000x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S50000x128.size a
  hwx0_15 : ∀ i : grid0.Coords, EltTy.bits .f32 = 32 ∨ (Rect.block (s := S50000x128) S2000x128.size (cc0_transform_15 i) (hinb0_15 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v38) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42_0) S2000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v42_1) S2000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v42_2) S2000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v42_3) S2000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S50000x128, .f32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S128x128, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S128x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x128, .f32⟩
  | .hbm, ⟨43, _⟩ => ⟨S_, .f32⟩
  | .hbm, ⟨44, _⟩ => ⟨S50000x128, .f32⟩
  | .hbm, ⟨45, _⟩ => ⟨S600000x1, .i32⟩
  | .hbm, ⟨46, _⟩ => ⟨S50000x128, .f32⟩
  | .hbm, ⟨47, _⟩ => ⟨S_, .f32⟩
  | .hbm, ⟨48, _⟩ => ⟨S600000, .f32⟩
  | .hbm, ⟨49, _⟩ => ⟨S_, .f32⟩
  | .hbm, ⟨50, _⟩ => ⟨S50000, .f32⟩
  | .hbm, ⟨51, _⟩ => ⟨S600000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S_, .f32⟩
  | .hbm, ⟨75, _⟩ => ⟨S50000x128, .f32⟩
  | .hbm, ⟨76, _⟩ => ⟨S600000x1, .i32⟩
  | .hbm, ⟨77, _⟩ => ⟨S50000x128, .f32⟩
  | .hbm, ⟨78, _⟩ => ⟨S_, .f32⟩
  | .hbm, ⟨79, _⟩ => ⟨S600000, .f32⟩
  | .hbm, ⟨80, _⟩ => ⟨S_, .f32⟩
  | .hbm, ⟨81, _⟩ => ⟨S50000, .f32⟩
  | .hbm, ⟨82, _⟩ => ⟨S600000x1, .i32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S128x128, .f32⟩
  | .hbm, ⟨91, _⟩ => ⟨S50000x128, .f32⟩
  | .hbm, ⟨92, _⟩ => ⟨S50000x128, .f32⟩
  | .hbm, ⟨93, _⟩ => ⟨S128x128, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_4 : Ref sig .tc := ⟨.hbm, 65, rfl⟩
abbrev main_v45 : Ref sig .tc := ⟨.hbm, 66, rfl⟩
abbrev main_v46 : Ref sig .tc := ⟨.hbm, 67, rfl⟩
abbrev main_c_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.TwoProducts.lean ====
/-
  Two matrix products and a bias row, added, read at an entry (nothing here depends on a program).

  For x, y of shape [A, K], w, u of shape [K, C] and a vector b of C entries, the array x·w + y·u + b (the
  vector added to every row) holds at entry (p, q)

      (∑ k < K, x[p, k] · w[k, q]  +  ∑ k < K, y[p, k] · u[k, q])  +  b[q].

  Two ways of writing it are read here at an entry, at the ideal values, where a change of float format is the
  identity and the product into a zero accumulator is the plain contraction:
    * the products through a matrix unit into zero accumulators, added, then the vector cast to one row and
      broadcast down the rows added last;
    * the host's form, (x·w + b) + y·u, the vector broadcast in two steps and added to the first product
      before the second product joins.
  They differ only in the order of the three summands; addition of extended reals is commutative and
  associative with no side condition (infinite entries included), so no finiteness is asked of the operands.
-/
import Idealize.ShloMosaic.Lib.ValueIdx
import Idealize.ShloMosaic.Lib.Pipeline.Value
import Idealize.ShloMosaic.PureOps.Ideal.Laws
import proofs.«163140_j34548716929228_1_alg».proof.Proof.LibMatmul
import proofs.«163140_j34548716929228_1_alg».proof.Proof.LibLayout

noncomputable section

namespace Cert.TwoProducts

open Idealize.ShloMosaic Idealize.ShloMosaic.ValueIdx

variable {A K C : Nat}

/-- x·w + y·u + b, entry by entry. -/
def twoProducts (x y : FVec Ideal ⟨2, ![A, K]⟩ .f32) (w u : FVec Ideal ⟨2, ![K, C]⟩ .f32)
    (b : FVec Ideal ⟨1, ![C]⟩ .f32) : FVec Ideal ⟨2, ![A, C]⟩ .f32 :=
  fun i => ((∑ k : Fin K, (x (ix2 (i 0) k) : EReal) * (w (ix2 k (i 1)) : EReal))
      + ∑ k : Fin K, (y (ix2 (i 0) k) : EReal) * (u (ix2 k (i 1)) : EReal)) + (b (ix1 (i 1)) : EReal)

theorem twoProducts_apply (x y : FVec Ideal ⟨2, ![A, K]⟩ .f32) (w u : FVec Ideal ⟨2, ![K, C]⟩ .f32)
    (b : FVec Ideal ⟨1, ![C]⟩ .f32) (p : Fin A) (q : Fin C) :
    twoProducts x y w u b (ix2 p q)
      = ((∑ k : Fin K, (x (ix2 p k) : EReal) * (w (ix2 k q) : EReal))
          + ∑ k : Fin K, (y (ix2 p k) : EReal) * (u (ix2 k q) : EReal)) + (b (ix1 q) : EReal) := rfl

/-- Equal operands give equal two-product arrays. -/
theorem twoProducts_congr {x x' y y' : FVec Ideal ⟨2, ![A, K]⟩ .f32} {w w' u u' : FVec Ideal ⟨2, ![K, C]⟩ .f32}
    {b b' : FVec Ideal ⟨1, ![C]⟩ .f32} (hx : x = x') (hy : y = y') (hw : w = w') (hu : u = u') (hb : b = b') :
    twoProducts x y w u b = twoProducts x' y' w' u' b' := by
  subst hx hy hw hu hb
  rfl

/-- Rows o, …, o + R − 1 of x·w + y·u + b are the two-product array of those rows of x and of y: an entry depends
    on one row of x and of y only. -/
theorem twoProducts_rows {R : Nat} (X Y : FVec Ideal ⟨2, ![A, K]⟩ .f32) (w u : FVec Ideal ⟨2, ![K, C]⟩ .f32)
    (b : FVec Ideal ⟨1, ![C]⟩ .f32) (xb yb : FVec Ideal ⟨2, ![R, K]⟩ .f32) (o : Nat) (ho : o + R ≤ A)
    (hx : ∀ (p : Fin R) (k : Fin K), xb (ix2 p k) = X (ix2 ⟨o + p.val, by have := p.isLt; omega⟩ k))
    (hy : ∀ (p : Fin R) (k : Fin K), yb (ix2 p k) = Y (ix2 ⟨o + p.val, by have := p.isLt; omega⟩ k))
    (p : Fin R) (q : Fin C) :
    twoProducts xb yb w u b (ix2 p q) = twoProducts X Y w u b (ix2 ⟨o + p.val, by have := p.isLt; omega⟩ q) := by
  rw [twoProducts_apply, twoProducts_apply]
  simp only [hx, hy]

/-- Two arrays of shape [A, C] that agree at every (p, q) are equal. -/
theorem ext_entries {α : Type} (f g : (⟨2, ![A, C]⟩ : Shape).Idx → α)
    (h : ∀ (p : Fin A) (q : Fin C), f (ix2 p q) = g (ix2 p q)) : f = g := by
  funext i
  rw [eq_ix2 i]
  exact h (i 0) (i 1)

/-- The matrix-unit form at an entry: both products into zero accumulators, their sum, then the bias row.
    The operands of the products may be of any float format (narrowed copies of x, w, y, u). -/
theorem unitForm_apply {φ₁ φ₂ φ₃ φ₄ : FTy} (xn : FVec Ideal ⟨2, ![A, K]⟩ φ₁) (wn : FVec Ideal ⟨2, ![K, C]⟩ φ₂)
    (yn : FVec Ideal ⟨2, ![A, K]⟩ φ₃) (un : FVec Ideal ⟨2, ![K, C]⟩ φ₄) (b : FVec Ideal ⟨1, ![C]⟩ .f32)
    (h1 : (⟨1, ![C]⟩ : Shape).ShapeCasts ⟨2, ![1, C]⟩) (h2 : (⟨2, ![1, C]⟩ : Shape).Broadcasts ⟨2, ![A, C]⟩)
    (p : Fin A) (q : Fin C) :
    addf (addf (matmul (DotDims.plain A K C) none xn wn (constant ⟨2, ![A, C]⟩ .f32 0x00000000#32))
               (matmul (DotDims.plain A K C) none yn un (constant ⟨2, ![A, C]⟩ .f32 0x00000000#32)))
         (broadcastTo ⟨2, ![A, C]⟩ (shapeCast ⟨2, ![1, C]⟩ b h1) h2) (ix2 p q)
      = ((∑ k : Fin K, (xn (ix2 p k) : EReal) * (wn (ix2 k q) : EReal))
          + ∑ k : Fin K, (yn (ix2 p k) : EReal) * (un (ix2 k q) : EReal)) + (b (ix1 q) : EReal) := by
  rw [addf_apply, addf_apply]
  rw [show matmul (DotDims.plain A K C) none xn wn (constant ⟨2, ![A, C]⟩ .f32 0x00000000#32) (ix2 p q)
        = ∑ k : Fin K, (xn (ix2 p k) : EReal) * (wn (ix2 k q) : EReal) from
      Cert.Lib.Matmul.matmul_zero_apply none xn wn p q,
    show matmul (DotDims.plain A K C) none yn un (constant ⟨2, ![A, C]⟩ .f32 0x00000000#32) (ix2 p q)
        = ∑ k : Fin K, (yn (ix2 p k) : EReal) * (un (ix2 k q) : EReal) from
      Cert.Lib.Matmul.matmul_zero_apply none yn un p q,
    Cert.Lib.Layout.bcastRow_apply b h1 h2 p q]

/-- A vector of C entries broadcast to one row and then down A rows (the host's two steps), at (p, q). -/
theorem hostBias_apply {α : Type} (b : (⟨1, ![C]⟩ : Shape).Idx → α)
    (h1 : (⟨1, ![C]⟩ : Shape).BroadcastsInDim ⟨2, ![1, C]⟩ (![1] : Fin 1 → Fin 2))
    (h2 : (⟨2, ![1, C]⟩ : Shape).BroadcastsInDim ⟨2, ![A, C]⟩ (![0, 1] : Fin 2 → Fin 2))
    (p : Fin A) (q : Fin C) :
    broadcastInDim ⟨2, ![A, C]⟩ (![0, 1] : Fin 2 → Fin 2) h2
        (broadcastInDim ⟨2, ![1, C]⟩ (![1] : Fin 1 → Fin 2) h1 b) (ix2 p q) = b (ix1 q) := by
  refine (broadcastInDim_apply (![0, 1] : Fin 2 → Fin 2) h2 _ (ix2 p q) (ix2 (0 : Fin 1) q) ?_).trans ?_
  · intro a
    match a with
    | ⟨0, _⟩ => simp
    | ⟨1, _⟩ =>
      show q.val = if C = 1 then 0 else q.val
      split
      · have := q.isLt; omega
      · rfl
  · refine broadcastInDim_apply (![1] : Fin 1 → Fin 2) h1 b (ix2 (0 : Fin 1) q) (ix1 q) ?_
    intro a
    match a with
    | ⟨0, _⟩ =>
      show q.val = if C = 1 then 0 else q.val
      split
      · have := q.isLt; omega
      · rfl

/-- The host's form at an entry: (x·w + b) + y·u is x·w + y·u + b. -/
theorem hostForm_apply (x y : FVec Ideal ⟨2, ![A, K]⟩ .f32) (w u : FVec Ideal ⟨2, ![K, C]⟩ .f32)
    (b : FVec Ideal ⟨1, ![C]⟩ .f32)
    (h1 : (⟨1, ![C]⟩ : Shape).BroadcastsInDim ⟨2, ![1, C]⟩ (![1] : Fin 1 → Fin 2))
    (h2 : (⟨2, ![1, C]⟩ : Shape).BroadcastsInDim ⟨2, ![A, C]⟩ (![0, 1] : Fin 2 → Fin 2))
    (p : Fin A) (q : Fin C) :
    addf (addf (Host.dotGeneral (DotDims.plain A K C) none x w)
               (broadcastInDim ⟨2, ![A, C]⟩ (![0, 1] : Fin 2 → Fin 2) h2
                 (broadcastInDim ⟨2, ![1, C]⟩ (![1] : Fin 1 → Fin 2) h1 b)))
         (Host.dotGeneral (DotDims.plain A K C) none y u) (ix2 p q)
      = twoProducts x y w u b (ix2 p q) := by
  rw [addf_apply, addf_apply, twoProducts_apply]
  rw [show Host.dotGeneral (DotDims.plain A K C) none x w (ix2 p q)
        = ∑ k : Fin K, (x (ix2 p k) : EReal) * (w (ix2 k q) : EReal) from
      Cert.Lib.Matmul.dotGeneral_apply none .single x w p q,
    show Host.dotGeneral (DotDims.plain A K C) none y u (ix2 p q)
        = ∑ k : Fin K, (y (ix2 p k) : EReal) * (u (ix2 k q) : EReal) from
      Cert.Lib.Matmul.dotGeneral_apply none .single y u p q,
    hostBias_apply b h1 h2 p q]
  exact add_right_comm _ _ _

end Cert.TwoProducts

end
-- ==== Proof.KernelEntries.lean ====
/-
  What the kernel body stores, read at an entry.

  The body stores four [2000, 128] blocks. Each is the sum of two products of a row block with a [128, 128] weight
  block (operands narrowed to bf16, which at the ideal values changes nothing; products into zero accumulators) and
  a bias vector added to every row:

      first  output : x_a ·Wa  + agg_ba·Wba + b_a        second output : x_b ·Wb  + agg_ab·Wab + b_b
      third  output : xp_a·Wa  + xp_a  ·Wba + b_a        fourth output : xp_b·Wb  + xp_b  ·Wab + b_b

  so each entry (p, q) is the two-product value of Proof/TwoProducts.lean at the block's operands.
-/
import proofs.«163140_j34548716929228_1_alg».proof.Proof.Gen.KernelIdeal.Skeleton
import proofs.«163140_j34548716929228_1_alg».proof.Proof.TwoProducts

noncomputable section

namespace Cert.KernelIdeal.Entries

open Cert.KernelIdeal Cert.KernelIdeal.Gen Idealize.ShloMosaic Idealize.ShloMosaic.ValueIdx Cert.TwoProducts

/-- The first output's block: rows of x and of the aggregate against the two weight blocks, plus the bias. -/
theorem first_apply (w u : FVec Ideal S128x128 .f32) (b : FVec Ideal S128 .f32) (x y : FVec Ideal S2000x128 .f32)
    (p : Fin 2000) (q : Fin 128) :
    k0_pay8 (F := Ideal) w u b x y (ix2 p q) = twoProducts x y w u b (ix2 p q) := by
  unfold k0_pay8 k0_pay4 k0_pay6
  simp only [shapeCast_self]
  exact unitForm_apply (A := 2000) (K := 128) (C := 128) _ _ _ _ b _ _ p q

/-- The second output's block (its two products are one payload, the bias joins in another). -/
theorem second_apply (w u : FVec Ideal S128x128 .f32) (b : FVec Ideal S128 .f32) (x y : FVec Ideal S2000x128 .f32)
    (p : Fin 2000) (q : Fin 128) :
    k0_pay1 (F := Ideal) b (k0_pay9 w u x y) (ix2 p q) = twoProducts x y w u b (ix2 p q) := by
  unfold k0_pay1 k0_pay9 k0_pay5 k0_pay7
  simp only [shapeCast_self]
  exact unitForm_apply (A := 2000) (K := 128) (C := 128) _ _ _ _ b _ _ p q

/-- The third output's block: one row block against both weight blocks. -/
theorem third_apply (w u : FVec Ideal S128x128 .f32) (b : FVec Ideal S128 .f32) (x : FVec Ideal S2000x128 .f32)
    (p : Fin 2000) (q : Fin 128) :
    k0_pay2 (F := Ideal) (k0_pay4 w) (k0_pay6 u) b x (ix2 p q) = twoProducts x x w u b (ix2 p q) := by
  unfold k0_pay2 k0_pay4 k0_pay6
  simp only [shapeCast_self]
  exact unitForm_apply (A := 2000) (K := 128) (C := 128) _ _ _ _ b _ _ p q

/-- The fourth output's block: one row block against both weight blocks. -/
theorem fourth_apply (w u : FVec Ideal S128x128 .f32) (b : FVec Ideal S128 .f32) (x : FVec Ideal S2000x128 .f32)
    (p : Fin 2000) (q : Fin 128) :
    k0_pay3 (F := Ideal) (k0_pay5 w) (k0_pay7 u) b x (ix2 p q) = twoProducts x x w u b (ix2 p q) := by
  unfold k0_pay3 k0_pay5 k0_pay7
  simp only [shapeCast_self]
  exact unitForm_apply (A := 2000) (K := 128) (C := 128) _ _ _ _ b _ _ p q

end Cert.KernelIdeal.Entries

end
-- ==== Proof.BlockReads.lean ====
/-
  Where the blocks of the sixteen windows sit, read for ANY array.

  The grid has 25 points. At point t the six row windows (0 … 5) and the four output windows (12 … 15) hold rows
  t·2000 … t·2000 + 1999 of their [50000, 128] arrays, all 128 columns; the four weight windows (6 … 9) and the two
  bias windows (10, 11) hold their whole [128, 128] and [128] arrays at every point. Every statement below is about
  an arbitrary array f in a window's buffer, never about a particular one, so that nothing in it depends on what
  the host wrote into the arrays before the kernel was launched.
-/
import proofs.«163140_j34548716929228_1_alg».proof.Proof.Gen.KernelIdeal.Frame
import Idealize.ShloMosaic.Lib.ValueIdx
import Idealize.ShloMosaic.Lib.Pipeline.Value

noncomputable section

namespace Cert.KernelIdeal.Reads

open Cert.KernelIdeal Cert.KernelIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 25 points: a row window's block index is (t, 0), a weight window's
    (0, 0), a bias window's (0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem idx_whole : ∀ t : Fin cfg0.N,
    win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0 ∧ win0_11.index t (0 : Fin 1) = 0 :=
  (by decide +kernel : ∀ t : Fin grid0.N, _)

theorem idx_out : ∀ t : Fin cfg0.N,
    win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- The last row block ends at the array's last row: 25 blocks of 2000 rows are the 50000 rows. -/
theorem rowBound (t : Fin cfg0.N) : t.val * 2000 + 2000 ≤ 50000 := by
  have h : t.val < 25 := t.isLt
  omega

/-- Row t·2000 + p of the array, as an index with column k. -/
abbrev rowIx (t : Fin cfg0.N) (p : Fin 2000) (k : Fin 128) : (⟨2, ![50000, 128]⟩ : Shape).Idx :=
  ix2 ⟨t.val * 2000 + p.val, by have := rowBound t; have := p.isLt; omega⟩ k

/-! ## The row windows: entry (p, k) of the block at point t is the array's entry (t·2000 + p, k) -/

theorem rows0 (t : Fin cfg0.N) (f : FVec Ideal S50000x128 .f32) (p : Fin 2000) (k : Fin 128) :
    ((cfg0.win 0).blk t).view.read (Elt Ideal) f (ix2 p k) = f (rowIx t p k) := by
  show f (((cfg0.win 0).blk t).view.emb (ix2 p k)) = _
  refine congrArg f ?_
  obtain ⟨e0, e1, -⟩ := idx_rows t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem rows1 (t : Fin cfg0.N) (f : FVec Ideal S50000x128 .f32) (p : Fin 2000) (k : Fin 128) :
    ((cfg0.win 1).blk t).view.read (Elt Ideal) f (ix2 p k) = f (rowIx t p k) := by
  show f (((cfg0.win 1).blk t).view.emb (ix2 p k)) = _
  refine congrArg f ?_
  obtain ⟨-, -, e0, e1, -⟩ := idx_rows t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem rows2 (t : Fin cfg0.N) (f : FVec Ideal S50000x128 .f32) (p : Fin 2000) (k : Fin 128) :
    ((cfg0.win 2).blk t).view.read (Elt Ideal) f (ix2 p k) = f (rowIx t p k) := by
  show f (((cfg0.win 2).blk t).view.emb (ix2 p k)) = _
  refine congrArg f ?_
  obtain ⟨-, -, -, -, e0, e1, -⟩ := idx_rows t
  funext a; apply Fin.ext
  match a with
  | ⟨0, _⟩ => show win0_2.index t (0 : Fin 2) * 2000 + 1 * p.val = t.val * 2000 + p.val; omega
  | ⟨1, _⟩ => show win0_2.index t (1 : Fin 2) * 128 + 1 * k.val = k.val; omega

theorem rows3 (t : Fin cfg0.N) (f : FVec Ideal S50000x128 .f32) (p : Fin 2000) (k : Fin 128) :
    ((cfg0.win 3).blk t).view.read (Elt Ideal) f (ix2 p k) = f (rowIx t p k) := by
  show f (((cfg0.win 3).blk t).view.emb (ix2 p k)) = _
  refine congrArg f ?_
  obtain ⟨-, -, -, -, -, -, e0, e1, -⟩ := idx_rows t
  funext a; apply Fin.ext
  match a with
  | ⟨0, _⟩ => show win0_3.index t (0 : Fin 2) * 2000 + 1 * p.val = t.val * 2000 + p.val; omega
  | ⟨1, _⟩ => show win0_3.index t (1 : Fin 2) * 128 + 1 * k.val = k.val; omega

theorem rows4 (t : Fin cfg0.N) (f : FVec Ideal S50000x128 .f32) (p : Fin 2000) (k : Fin 128) :
    ((cfg0.win 4).blk t).view.read (Elt Ideal) f (ix2 p k) = f (rowIx t p k) := by
  show f (((cfg0.win 4).blk t).view.emb (ix2 p k)) = _
  refine congrArg f ?_
  obtain ⟨-, -, -, -, -, -, -, -, e0, e1, -⟩ := idx_rows t
  funext a; apply Fin.ext
  match a with
  | ⟨0, _⟩ => show win0_4.index t (0 : Fin 2) * 2000 + 1 * p.val = t.val * 2000 + p.val; omega
  | ⟨1, _⟩ => show win0_4.index t (1 : Fin 2) * 128 + 1 * k.val = k.val; omega

theorem rows5 (t : Fin cfg0.N) (f : FVec Ideal S50000x128 .f32) (p : Fin 2000) (k : Fin 128) :
    ((cfg0.win 5).blk t).view.read (Elt Ideal) f (ix2 p k) = f (rowIx t p k) := by
  show f (((cfg0.win 5).blk t).view.emb (ix2 p k)) = _
  refine congrArg f ?_
  obtain ⟨-, -, -, -, -, -, -, -, -, -, e0, e1⟩ := idx_rows t
  funext a; apply Fin.ext
  match a with
  | ⟨0, _⟩ => show win0_5.index t (0 : Fin 2) * 2000 + 1 * p.val = t.val * 2000 + p.val; omega
  | ⟨1, _⟩ => show win0_5.index t (1 : Fin 2) * 128 + 1 * k.val = k.val; omega

/-! ## The weight and bias windows: the block at every point is the whole array -/

theorem whole6 (t : Fin cfg0.N) (f : FVec Ideal S128x128 .f32) :
    ((cfg0.win 6).blk t).view.read (Elt Ideal) f = f := by
  funext j
  show f (((cfg0.win 6).blk t).view.emb j) = f j
  refine congrArg f ?_
  obtain ⟨e0, e1, -⟩ := idx_whole t
  funext a; apply Fin.ext
  match a with
  | ⟨0, _⟩ => show win0_6.index t (0 : Fin 2) * 128 + 1 * (j 0).val = (j 0).val; omega
  | ⟨1, _⟩ => show win0_6.index t (1 : Fin 2) * 128 + 1 * (j 1).val = (j 1).val; omega

theorem whole7 (t : Fin cfg0.N) (f : FVec Ideal S128x128 .f32) :
    ((cfg0.win 7).blk t).view.read (Elt Ideal) f = f := by
  funext j
  show f (((cfg0.win 7).blk t).view.emb j) = f j
  refine congrArg f ?_
  obtain ⟨-, -, e0, e1, -⟩ := idx_whole t
  funext a; apply Fin.ext
  match a with
  | ⟨0, _⟩ => show win0_7.index t (0 : Fin 2) * 128 + 1 * (j 0).val = (j 0).val; omega
  | ⟨1, _⟩ => show win0_7.index t (1 : Fin 2) * 128 + 1 * (j 1).val = (j 1).val; omega

theorem whole8 (t : Fin cfg0.N) (f : FVec Ideal S128x128 .f32) :
    ((cfg0.win 8).blk t).view.read (Elt Ideal) f = f := by
  funext j
  show f (((cfg0.win 8).blk t).view.emb j) = f j
  refine congrArg f ?_
  obtain ⟨-, -, -, -, e0, e1, -⟩ := idx_whole t
  funext a; apply Fin.ext
  match a with
  | ⟨0, _⟩ => show win0_8.index t (0 : Fin 2) * 128 + 1 * (j 0).val = (j 0).val; omega
  | ⟨1, _⟩ => show win0_8.index t (1 : Fin 2) * 128 + 1 * (j 1).val = (j 1).val; omega

theorem whole9 (t : Fin cfg0.N) (f : FVec Ideal S128x128 .f32) :
    ((cfg0.win 9).blk t).view.read (Elt Ideal) f = f := by
  funext j
  show f (((cfg0.win 9).blk t).view.emb j) = f j
  refine congrArg f ?_
  obtain ⟨-, -, -, -, -, -, e0, e1, -⟩ := idx_whole t
  funext a; apply Fin.ext
  match a with
  | ⟨0, _⟩ => show win0_9.index t (0 : Fin 2) * 128 + 1 * (j 0).val = (j 0).val; omega
  | ⟨1, _⟩ => show win0_9.index t (1 : Fin 2) * 128 + 1 * (j 1).val = (j 1).val; omega

theorem whole10 (t : Fin cfg0.N) (f : FVec Ideal S128 .f32) :
    ((cfg0.win 10).blk t).view.read (Elt Ideal) f = f := by
  funext j
  show f (((cfg0.win 10).blk t).view.emb j) = f j
  refine congrArg f ?_
  obtain ⟨-, -, -, -, -, -, -, -, e0, -⟩ := idx_whole t
  funext a; apply Fin.ext
  match a with
  | ⟨0, _⟩ => show win0_10.index t (0 : Fin 1) * 128 + 1 * (j 0).val = (j 0).val; omega

theorem whole11 (t : Fin cfg0.N) (f : FVec Ideal S128 .f32) :
    ((cfg0.win 11).blk t).view.read (Elt Ideal) f = f := by
  funext j
  show f (((cfg0.win 11).blk t).view.emb j) = f j
  refine congrArg f ?_
  obtain ⟨-, -, -, -, -, -, -, -, -, e0⟩ := idx_whole t
  funext a; apply Fin.ext
  match a with
  | ⟨0, _⟩ => show win0_11.index t (0 : Fin 1) * 128 + 1 * (j 0).val = (j 0).val; omega

/-! ## The output windows: a block whose entry (p, q) is G at (t·2000 + p, q) is what point t's write-back reads of G -/

theorem flush12_of_entries (t : Fin cfg0.N) (B : Vec Ideal S2000x128 .f32) (G : FVec Ideal S50000x128 .f32)
    (h : ∀ (p : Fin 2000) (q : Fin 128), B (ix2 p q) = G (rowIx t p q)) :
    (cfg0.win 12).cut (grid0.coords t) B = ((cfg0.win 12).blk t).view.read (Elt Ideal) G := by
  funext j
  show B j = G (((cfg0.win 12).blk t).view.emb j)
  refine ((congrArg B (eq_ix2 (n0 := 2000) (n1 := 128) j)).trans (h (j 0) (j 1))).trans (congrArg G ?_)
  obtain ⟨e0, e1, -⟩ := idx_out t
  funext a; apply Fin.ext
  match a with
  | ⟨0, _⟩ => show t.val * 2000 + (j 0).val = win0_12.index t (0 : Fin 2) * 2000 + 1 * (j 0).val; omega
  | ⟨1, _⟩ => show (j 1).val = win0_12.index t (1 : Fin 2) * 128 + 1 * (j 1).val; omega

theorem flush13_of_entries (t : Fin cfg0.N) (B : Vec Ideal S2000x128 .f32) (G : FVec Ideal S50000x128 .f32)
    (h : ∀ (p : Fin 2000) (q : Fin 128), B (ix2 p q) = G (rowIx t p q)) :
    (cfg0.win 13).cut (grid0.coords t) B = ((cfg0.win 13).blk t).view.read (Elt Ideal) G := by
  funext j
  show B j = G (((cfg0.win 13).blk t).view.emb j)
  refine ((congrArg B (eq_ix2 (n0 := 2000) (n1 := 128) j)).trans (h (j 0) (j 1))).trans (congrArg G ?_)
  obtain ⟨-, -, e0, e1, -⟩ := idx_out t
  funext a; apply Fin.ext
  match a with
  | ⟨0, _⟩ => show t.val * 2000 + (j 0).val = win0_13.index t (0 : Fin 2) * 2000 + 1 * (j 0).val; omega
  | ⟨1, _⟩ => show (j 1).val = win0_13.index t (1 : Fin 2) * 128 + 1 * (j 1).val; omega

theorem flush14_of_entries (t : Fin cfg0.N) (B : Vec Ideal S2000x128 .f32) (G : FVec Ideal S50000x128 .f32)
    (h : ∀ (p : Fin 2000) (q : Fin 128), B (ix2 p q) = G (rowIx t p q)) :
    (cfg0.win 14).cut (grid0.coords t) B = ((cfg0.win 14).blk t).view.read (Elt Ideal) G := by
  funext j
  show B j = G (((cfg0.win 14).blk t).view.emb j)
  refine ((congrArg B (eq_ix2 (n0 := 2000) (n1 := 128) j)).trans (h (j 0) (j 1))).trans (congrArg G ?_)
  obtain ⟨-, -, -, -, e0, e1, -⟩ := idx_out t
  funext a; apply Fin.ext
  match a with
  | ⟨0, _⟩ => show t.val * 2000 + (j 0).val = win0_14.index t (0 : Fin 2) * 2000 + 1 * (j 0).val; omega
  | ⟨1, _⟩ => show (j 1).val = win0_14.index t (1 : Fin 2) * 128 + 1 * (j 1).val; omega

theorem flush15_of_entries (t : Fin cfg0.N) (B : Vec Ideal S2000x128 .f32) (G : FVec Ideal S50000x128 .f32)
    (h : ∀ (p : Fin 2000) (q : Fin 128), B (ix2 p q) = G (rowIx t p q)) :
    (cfg0.win 15).cut (grid0.coords t) B = ((cfg0.win 15).blk t).view.read (Elt Ideal) G := by
  funext j
  show B j = G (((cfg0.win 15).blk t).view.emb j)
  refine ((congrArg B (eq_ix2 (n0 := 2000) (n1 := 128) j)).trans (h (j 0) (j 1))).trans (congrArg G ?_)
  obtain ⟨-, -, -, -, -, -, e0, e1⟩ := idx_out t
  funext a; apply Fin.ext
  match a with
  | ⟨0, _⟩ => show t.val * 2000 + (j 0).val = win0_15.index t (0 : Fin 2) * 2000 + 1 * (j 0).val; omega
  | ⟨1, _⟩ => show (j 1).val = win0_15.index t (1 : Fin 2) * 128 + 1 * (j 1).val; omega

/-! ## The output blocks tile the arrays: row r lies in the block of point r / 2000 -/

theorem mem_blk12 (t : Fin cfg0.N) (i : S50000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v42_0).slice (win0_12.rect t)).set ↔ _
  rw [View.set_slice_whole, Rect.mem_set_unit]
  exact Iff.rfl

theorem mem_blk13 (t : Fin cfg0.N) (i : S50000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v42_1).slice (win0_13.rect t)).set ↔ _
  rw [View.set_slice_whole, Rect.mem_set_unit]
  exact Iff.rfl

theorem mem_blk14 (t : Fin cfg0.N) (i : S50000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_v42_2).slice (win0_14.rect t)).set ↔ _
  rw [View.set_slice_whole, Rect.mem_set_unit]
  exact Iff.rfl

theorem mem_blk15 (t : Fin cfg0.N) (i : S50000x128.Idx) :
    i ∈ ((cfg0.win 15).blk t).view.set ↔ ∀ a : Fin 2, win0_15.index t a * S2000x128.size a ≤ (i a).val ∧ (i a).val < win0_15.index t a * S2000x128.size a + S2000x128.size a := by
  show i ∈ ((View.whole main_v42_3).slice (win0_15.rect t)).set ↔ _
  rw [View.set_slice_whole, Rect.mem_set_unit]
  exact Iff.rfl

/-- The point whose block holds row r. -/
theorem pointOfRow (i : S50000x128.Idx) : ∃ t : Fin cfg0.N, t.val = (i 0).val / 2000 :=
  ⟨⟨(i 0).val / 2000, by have h : (i 0).val < 50000 := (i 0).isLt; show (i 0).val / 2000 < 25; omega⟩, rfl⟩

theorem cover12 (i : S50000x128.Idx) :
    ∃ t : Fin cfg0.N, (cfg0.win 12).flush t = true ∧ i ∈ ((cfg0.win 12).blk t).view.set := by
  have hi0 : (i 0).val < 50000 := (i 0).isLt
  have hi1 : (i 1).val < 128 := (i 1).isLt
  obtain ⟨t, ht⟩ := pointOfRow i
  obtain ⟨e0, e1, -⟩ := idx_out t
  refine ⟨t, flush0_12 t, ?_⟩
  rw [mem_blk12]
  intro a
  match a with
  | ⟨0, _⟩ => show win0_12.index t (0 : Fin 2) * 2000 ≤ (i 0).val ∧ (i 0).val < win0_12.index t (0 : Fin 2) * 2000 + 2000; omega
  | ⟨1, _⟩ => show win0_12.index t (1 : Fin 2) * 128 ≤ (i 1).val ∧ (i 1).val < win0_12.index t (1 : Fin 2) * 128 + 128; omega

theorem cover13 (i : S50000x128.Idx) :
    ∃ t : Fin cfg0.N, (cfg0.win 13).flush t = true ∧ i ∈ ((cfg0.win 13).blk t).view.set := by
  have hi0 : (i 0).val < 50000 := (i 0).isLt
  have hi1 : (i 1).val < 128 := (i 1).isLt
  obtain ⟨t, ht⟩ := pointOfRow i
  obtain ⟨-, -, e0, e1, -⟩ := idx_out t
  refine ⟨t, flush0_13 t, ?_⟩
  rw [mem_blk13]
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 128 ≤ (i 1).val ∧ (i 1).val < win0_13.index t (1 : Fin 2) * 128 + 128; omega

theorem cover14 (i : S50000x128.Idx) :
    ∃ t : Fin cfg0.N, (cfg0.win 14).flush t = true ∧ i ∈ ((cfg0.win 14).blk t).view.set := by
  have hi0 : (i 0).val < 50000 := (i 0).isLt
  have hi1 : (i 1).val < 128 := (i 1).isLt
  obtain ⟨t, ht⟩ := pointOfRow i
  obtain ⟨-, -, -, -, e0, e1, -⟩ := idx_out t
  refine ⟨t, flush0_14 t, ?_⟩
  rw [mem_blk14]
  intro a
  match a with
  | ⟨0, _⟩ => show win0_14.index t (0 : Fin 2) * 2000 ≤ (i 0).val ∧ (i 0).val < win0_14.index t (0 : Fin 2) * 2000 + 2000; omega
  | ⟨1, _⟩ => show win0_14.index t (1 : Fin 2) * 128 ≤ (i 1).val ∧ (i 1).val < win0_14.index t (1 : Fin 2) * 128 + 128; omega

theorem cover15 (i : S50000x128.Idx) :
    ∃ t : Fin cfg0.N, (cfg0.win 15).flush t = true ∧ i ∈ ((cfg0.win 15).blk t).view.set := by
  have hi0 : (i 0).val < 50000 := (i 0).isLt
  have hi1 : (i 1).val < 128 := (i 1).isLt
  obtain ⟨t, ht⟩ := pointOfRow i
  obtain ⟨-, -, -, -, -, -, e0, e1⟩ := idx_out t
  refine ⟨t, flush0_15 t, ?_⟩
  rw [mem_blk15]
  intro a
  match a with
  | ⟨0, _⟩ => show win0_15.index t (0 : Fin 2) * 2000 ≤ (i 0).val ∧ (i 0).val < win0_15.index t (0 : Fin 2) * 2000 + 2000; omega
  | ⟨1, _⟩ => show win0_15.index t (1 : Fin 2) * 128 ≤ (i 1).val ∧ (i 1).val < win0_15.index t (1 : Fin 2) * 128 + 128; omega

end Cert.KernelIdeal.Reads

end
-- ==== Proof.KernelArrays.lean ====
/-
  The four output arrays after the kernel's run, each as one function of the arrays the region finds.

  At every grid point the body stores, in each output window, the two-product value (Proof/TwoProducts.lean) of
  the point's row blocks and of the whole weight and bias arrays (Proof/KernelEntries.lean). A row block at point t
  is rows t·2000 … of its array and an entry of x·w + y·u + b depends on one row of x and of y only, so the block
  stored at point t is rows t·2000 … of the two-product array of the WHOLE arrays; the 25 blocks tile the 50000
  rows, so after the run each output array is that two-product array:

      first  = x_a ·Waᵀ + agg_ba·Wbaᵀ + b_a        second = x_b ·Wbᵀ + agg_ab·Wabᵀ + b_b
      third  = xp_a·Waᵀ + xp_a  ·Wbaᵀ + b_a        fourth = xp_b·Wbᵀ + xp_b  ·Wabᵀ + b_b

  where the transposed weights and the two aggregates are the arrays the host operations before the launch wrote.
  The blocks are first read for arbitrary arrays (Proof/BlockReads.lean); the arrays of this run are put in last.
-/
import proofs.«163140_j34548716929228_1_alg».proof.Proof.Gen.KernelIdeal.Value
import proofs.«163140_j34548716929228_1_alg».proof.Proof.KernelEntries
import proofs.«163140_j34548716929228_1_alg».proof.Proof.BlockReads

noncomputable section

namespace Cert.KernelIdeal.Arrays

open Cert.KernelIdeal Cert.KernelIdeal.Gen Idealize.ShloMosaic Idealize.ShloMosaic.TcCoe Idealize.SL.Sem
open Idealize.ShloMosaic.ValueIdx Cert.TwoProducts Cert.KernelIdeal.Entries Cert.KernelIdeal.Reads
open Idealize.ShloMosaic.Pipeline (Dat)

/-! ## What a point stores, for arbitrary arrays in the windows -/

theorem block12 (t : Fin cfg0.N) (a0 a1 : FVec Ideal S50000x128 .f32) (a6 a8 : FVec Ideal S128x128 .f32)
    (a10 : FVec Ideal S128 .f32) (x2 x3 x4 x5 : Vec Ideal S2000x128 .f32) (x7 x9 : Vec Ideal S128x128 .f32)
    (x11 : Vec Ideal S128 .f32) (p : Fin 2000) (q : Fin 128) :
    out0_12 (((cfg0.win 0).blk t).view.read (Elt Ideal) a0) (((cfg0.win 1).blk t).view.read (Elt Ideal) a1) x2 x3 x4 x5
        (((cfg0.win 6).blk t).view.read (Elt Ideal) a6) x7 (((cfg0.win 8).blk t).view.read (Elt Ideal) a8) x9
        (((cfg0.win 10).blk t).view.read (Elt Ideal) a10) x11 (ix2 p q)
      = twoProducts a0 a1 a6 a8 a10 (rowIx t p q) := by
  unfold out0_12
  rw [View.canon_unit_zero hz2]
  simp only [View.ld_unit_zero (S := S128x128) hz2, View.ld_unit_zero (S := S128) hz1,
    View.ld_unit_zero (S := S2000x128) hz2]
  rw [whole6, whole8, whole10]
  refine (first_apply a6 a8 a10 _ _ p q).trans ?_
  exact twoProducts_rows a0 a1 a6 a8 a10 _ _ (t.val * 2000) (rowBound t) (rows0 t a0) (rows1 t a1) p q

theorem block13 (t : Fin cfg0.N) (a2 a3 : FVec Ideal S50000x128 .f32) (a7 a9 : FVec Ideal S128x128 .f32)
    (a11 : FVec Ideal S128 .f32) (x0 x1 x4 x5 : Vec Ideal S2000x128 .f32) (x6 x8 : Vec Ideal S128x128 .f32)
    (x10 : Vec Ideal S128 .f32) (p : Fin 2000) (q : Fin 128) :
    out0_13 x0 x1 (((cfg0.win 2).blk t).view.read (Elt Ideal) a2) (((cfg0.win 3).blk t).view.read (Elt Ideal) a3) x4 x5
        x6 (((cfg0.win 7).blk t).view.read (Elt Ideal) a7) x8 (((cfg0.win 9).blk t).view.read (Elt Ideal) a9)
        x10 (((cfg0.win 11).blk t).view.read (Elt Ideal) a11) (ix2 p q)
      = twoProducts a2 a3 a7 a9 a11 (rowIx t p q) := by
  unfold out0_13
  rw [View.canon_unit_zero hz2]
  simp only [View.ld_unit_zero (S := S128x128) hz2, View.ld_unit_zero (S := S128) hz1,
    View.ld_unit_zero (S := S2000x128) hz2]
  rw [whole7, whole9, whole11]
  refine (second_apply a7 a9 a11 _ _ p q).trans ?_
  exact twoProducts_rows a2 a3 a7 a9 a11 _ _ (t.val * 2000) (rowBound t) (rows2 t a2) (rows3 t a3) p q

theorem block14 (t : Fin cfg0.N) (a4 : FVec Ideal S50000x128 .f32) (a6 a8 : FVec Ideal S128x128 .f32)
    (a10 : FVec Ideal S128 .f32) (x0 x1 x2 x3 x5 : Vec Ideal S2000x128 .f32) (x7 x9 : Vec Ideal S128x128 .f32)
    (x11 : Vec Ideal S128 .f32) (p : Fin 2000) (q : Fin 128) :
    out0_14 x0 x1 x2 x3 (((cfg0.win 4).blk t).view.read (Elt Ideal) a4) x5
        (((cfg0.win 6).blk t).view.read (Elt Ideal) a6) x7 (((cfg0.win 8).blk t).view.read (Elt Ideal) a8) x9
        (((cfg0.win 10).blk t).view.read (Elt Ideal) a10) x11 (ix2 p q)
      = twoProducts a4 a4 a6 a8 a10 (rowIx t p q) := by
  unfold out0_14
  rw [View.canon_unit_zero hz2]
  simp only [View.ld_unit_zero (S := S128x128) hz2, View.ld_unit_zero (S := S128) hz1,
    View.ld_unit_zero (S := S2000x128) hz2]
  rw [whole6, whole8, whole10]
  refine (third_apply a6 a8 a10 _ p q).trans ?_
  exact twoProducts_rows a4 a4 a6 a8 a10 _ _ (t.val * 2000) (rowBound t) (rows4 t a4) (rows4 t a4) p q

theorem block15 (t : Fin cfg0.N) (a5 : FVec Ideal S50000x128 .f32) (a7 a9 : FVec Ideal S128x128 .f32)
    (a11 : FVec Ideal S128 .f32) (x0 x1 x2 x3 x4 : Vec Ideal S2000x128 .f32) (x6 x8 : Vec Ideal S128x128 .f32)
    (x10 : Vec Ideal S128 .f32) (p : Fin 2000) (q : Fin 128) :
    out0_15 x0 x1 x2 x3 x4 (((cfg0.win 5).blk t).view.read (Elt Ideal) a5)
        x6 (((cfg0.win 7).blk t).view.read (Elt Ideal) a7) x8 (((cfg0.win 9).blk t).view.read (Elt Ideal) a9)
        x10 (((cfg0.win 11).blk t).view.read (Elt Ideal) a11) (ix2 p q)
      = twoProducts a5 a5 a7 a9 a11 (rowIx t p q) := by
  unfold out0_15
  rw [View.canon_unit_zero hz2]
  simp only [View.ld_unit_zero (S := S128x128) hz2, View.ld_unit_zero (S := S128) hz1,
    View.ld_unit_zero (S := S2000x128) hz2]
  rw [whole7, whole9, whole11]
  refine (fourth_apply a7 a9 a11 _ p q).trans ?_
  exact twoProducts_rows a5 a5 a7 a9 a11 _ _ (t.val * 2000) (rowBound t) (rows5 t a5) (rows5 t a5) p q

/-! ## The arrays of this run -/

variable (m : (ℓ : Loc nD τ sig) → Buf (Elt Ideal) ℓ) (ρ : Dev nD → PrngReg)

/-- x_a·Waᵀ + agg_ba·Wbaᵀ + b_a over the arrays as the region finds them. -/
def first (c : Dev nD) : FVec Ideal S50000x128 .f32 :=
  twoProducts (V m c main_arg0) (V m c main_v37) (V m c main_v38) (V m c main_v41) (V m c main_arg9)

/-- x_b·Wbᵀ + agg_ab·Wabᵀ + b_b. -/
def second (c : Dev nD) : FVec Ideal S50000x128 .f32 :=
  twoProducts (V m c main_arg1) (V m c main_v18) (V m c main_v39) (V m c main_v40) (V m c main_arg11)

/-- xp_a·Waᵀ + xp_a·Wbaᵀ + b_a. -/
def third (c : Dev nD) : FVec Ideal S50000x128 .f32 :=
  twoProducts (V m c main_arg2) (V m c main_arg2) (V m c main_v38) (V m c main_v41) (V m c main_arg9)

/-- xp_b·Wbᵀ + xp_b·Wabᵀ + b_b. -/
def fourth (c : Dev nD) : FVec Ideal S50000x128 .f32 :=
  twoProducts (V m c main_arg3) (V m c main_arg3) (V m c main_v39) (V m c main_v40) (V m c main_arg11)

/-- What point t writes back to the first output is block t of `first`. -/
theorem flushed12_eq (c : Dev nD) (t : Fin cfg0.N) :
    (dats m 0 c).flushed 12 t = ((cfg0.win 12).blk t).view.read (Elt Ideal) (first m c) := by
  rw [Value.flushed12]
  exact flush12_of_entries t _ _ fun p q =>
    block12 t (V m c main_arg0) (V m c main_v37) (V m c main_v38) (V m c main_v41) (V m c main_arg9)
      (iblk m c 2 t) (iblk m c 3 t) (iblk m c 4 t) (iblk m c 5 t) (iblk m c 7 t) (iblk m c 9 t) (iblk m c 11 t) p q

theorem flushed13_eq (c : Dev nD) (t : Fin cfg0.N) :
    (dats m 0 c).flushed 13 t = ((cfg0.win 13).blk t).view.read (Elt Ideal) (second m c) := by
  rw [Value.flushed13]
  exact flush13_of_entries t _ _ fun p q =>
    block13 t (V m c main_arg1) (V m c main_v18) (V m c main_v39) (V m c main_v40) (V m c main_arg11)
      (iblk m c 0 t) (iblk m c 1 t) (iblk m c 4 t) (iblk m c 5 t) (iblk m c 6 t) (iblk m c 8 t) (iblk m c 10 t) p q

theorem flushed14_eq (c : Dev nD) (t : Fin cfg0.N) :
    (dats m 0 c).flushed 14 t = ((cfg0.win 14).blk t).view.read (Elt Ideal) (third m c) := by
  rw [Value.flushed14]
  exact flush14_of_entries t _ _ fun p q =>
    block14 t (V m c main_arg2) (V m c main_v38) (V m c main_v41) (V m c main_arg9)
      (iblk m c 0 t) (iblk m c 1 t) (iblk m c 2 t) (iblk m c 3 t) (iblk m c 5 t) (iblk m c 7 t) (iblk m c 9 t) (iblk m c 11 t) p q

theorem flushed15_eq (c : Dev nD) (t : Fin cfg0.N) :
    (dats m 0 c).flushed 15 t = ((cfg0.win 15).blk t).view.read (Elt Ideal) (fourth m c) := by
  rw [Value.flushed15]
  exact flush15_of_entries t _ _ fun p q =>
    block15 t (V m c main_arg3) (V m c main_v39) (V m c main_v40) (V m c main_arg11)
      (iblk m c 0 t) (iblk m c 1 t) (iblk m c 2 t) (iblk m c 3 t) (iblk m c 4 t) (iblk m c 6 t) (iblk m c 8 t) (iblk m c 10 t) p q

/-- The 25 blocks cover each output array, so after the run the array is the two-product array. -/
theorem final12 (c : Dev nD) : (dats m 0 c).arrAt 12 cfg0.N = first m c :=
  (dats m 0 c).arrAt_eq_of_cover 12 (first m c) (fun t _ => flushed12_eq m c t) cover12

theorem final13 (c : Dev nD) : (dats m 0 c).arrAt 13 cfg0.N = second m c :=
  (dats m 0 c).arrAt_eq_of_cover 13 (second m c) (fun t _ => flushed13_eq m c t) cover13

theorem final14 (c : Dev nD) : (dats m 0 c).arrAt 14 cfg0.N = third m c :=
  (dats m 0 c).arrAt_eq_of_cover 14 (third m c) (fun t _ => flushed14_eq m c t) cover14

theorem final15 (c : Dev nD) : (dats m 0 c).arrAt 15 cfg0.N = fourth m c :=
  (dats m 0 c).arrAt_eq_of_cover 15 (fourth m c) (fun t _ => flushed15_eq m c t) cover15

end Cert.KernelIdeal.Arrays

end
-- ==== Proof.KernelHost.lean ====
/-
  What the host operations before the launch leave in the arrays the kernel's windows stage, and the kernel's run
  re-posted over the program's arguments.

  Before the launch the host computes, for each of the two relations, the mean of the gathered source rows per
  destination row — the rows x[src[e]] summed into row dst[e] by a scatter-add (a negative source index wrapped
  by the row count first), divided by max(count, 1) where count is the scatter-add of ones — and transposes the
  four weight matrices. The row, bias and index arguments are not written at all. With these the four output
  arrays of Proof/KernelArrays.lean are two-product arrays of the arguments themselves.
-/
import proofs.«163140_j34548716929228_1_alg».proof.Proof.KernelArrays
import Idealize.ShloMosaic.Lib.StableHlo.Run

noncomputable section

namespace Cert.KernelIdeal.HostArrays

open Cert.KernelIdeal Cert.KernelIdeal.Gen Idealize.ShloMosaic Idealize.ShloMosaic.TcCoe Idealize.SL.Sem
open Idealize.ShloMosaic.StableHlo Cert.TwoProducts Cert.KernelIdeal.Arrays

/-- The mean of the rows x[src[e]] over the edges e with dst[e] = r, for every row r (a row no edge reaches is
    the zero row: the count's floor of one keeps the quotient 0 / 1). -/
def meanAgg {F : FTy → Type} [FloatOps F] (x : (⟨S50000x128, .f32⟩ : BufTy).Contents (Elt F))
    (src dst : (⟨S600000, .i32⟩ : BufTy).Contents (Elt F)) : (⟨S50000x128, .f32⟩ : BufTy).Contents (Elt F) :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst)
      (Host.gather gather_S50000x128_S600000x1_S600000x128_1_0_n_n_0_1_1128 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S600000x1_S600000_n_0_0_1
            (broadcastInDim S50000 ![] bcast_S_S50000 (constant S_ .f32 0x00000000#32))
            (broadcastInDim S600000x1 ![0] bcast_S600000_S600000x1_0 dst)
            (broadcastInDim S600000 ![] bcast_S_S600000 (constant S_ .f32 0x3F800000#32)))
          (broadcastInDim S50000 ![] bcast_S_S50000 (constant S_ .f32 0x3F800000#32)))))

/-- A [128, 128] weight matrix transposed. -/
def transposed {F : FTy → Type} [FloatOps F] (w : (⟨S128x128, .f32⟩ : BufTy).Contents (Elt F)) :
    (⟨S128x128, .f32⟩ : BufTy).Contents (Elt F) :=
  transpose S128x128 [1, 0] w transposes_S128x128_S128x128_1_0

variable (m : (ℓ : Loc nD τ sig) → Buf (Elt Ideal) ℓ) (ρ : Dev nD → PrngReg)

/-- The aggregate of relation (a → b): rows of x_a by src_ab into dst_ab. -/
theorem V_v18 (c : Dev nD) : V m c main_v18
    = meanAgg (m ((c : Thread nD τ).loc main_arg0)) (m ((c : Thread nD τ).loc main_arg4)) (m ((c : Thread nD τ).loc main_arg5)) := by
  dsimp only [Gen.V, Gen.hostOps0]
  after_results_simp
  rfl

/-- The aggregate of relation (b → a): rows of x_b by src_ba into dst_ba. -/
theorem V_v37 (c : Dev nD) : V m c main_v37
    = meanAgg (m ((c : Thread nD τ).loc main_arg1)) (m ((c : Thread nD τ).loc main_arg6)) (m ((c : Thread nD τ).loc main_arg7)) := by
  dsimp only [Gen.V, Gen.hostOps0]
  after_results_simp
  rfl

theorem V_v38 (c : Dev nD) : V m c main_v38 = transposed (m ((c : Thread nD τ).loc main_arg8)) := by
  dsimp only [Gen.V, Gen.hostOps0]
  after_results
  rfl

theorem V_v39 (c : Dev nD) : V m c main_v39 = transposed (m ((c : Thread nD τ).loc main_arg10)) := by
  dsimp only [Gen.V, Gen.hostOps0]
  after_results
  rfl

theorem V_v40 (c : Dev nD) : V m c main_v40 = transposed (m ((c : Thread nD τ).loc main_arg12)) := by
  dsimp only [Gen.V, Gen.hostOps0]
  after_results
  rfl

theorem V_v41 (c : Dev nD) : V m c main_v41 = transposed (m ((c : Thread nD τ).loc main_arg13)) := by
  dsimp only [Gen.V, Gen.hostOps0]
  after_results
  rfl

/-! ## The output arrays over the arguments -/

theorem first_args (c : Dev nD) : first m c
    = twoProducts (m ((c : Thread nD τ).loc main_arg0)) (meanAgg (m ((c : Thread nD τ).loc main_arg1)) (m ((c : Thread nD τ).loc main_arg6)) (m ((c : Thread nD τ).loc main_arg7)))
        (transposed (m ((c : Thread nD τ).loc main_arg8))) (transposed (m ((c : Thread nD τ).loc main_arg13))) (m ((c : Thread nD τ).loc main_arg9)) :=
  twoProducts_congr (V_main_arg0 m c) (V_v37 m c) (V_v38 m c) (V_v41 m c) (V_main_arg9 m c)

theorem second_args (c : Dev nD) : second m c
    = twoProducts (m ((c : Thread nD τ).loc main_arg1)) (meanAgg (m ((c : Thread nD τ).loc main_arg0)) (m ((c : Thread nD τ).loc main_arg4)) (m ((c : Thread nD τ).loc main_arg5)))
        (transposed (m ((c : Thread nD τ).loc main_arg10))) (transposed (m ((c : Thread nD τ).loc main_arg12))) (m ((c : Thread nD τ).loc main_arg11)) :=
  twoProducts_congr (V_main_arg1 m c) (V_v18 m c) (V_v39 m c) (V_v40 m c) (V_main_arg11 m c)

theorem third_args (c : Dev nD) : third m c
    = twoProducts (m ((c : Thread nD τ).loc main_arg2)) (m ((c : Thread nD τ).loc main_arg2))
        (transposed (m ((c : Thread nD τ).loc main_arg8))) (transposed (m ((c : Thread nD τ).loc main_arg13))) (m ((c : Thread nD τ).loc main_arg9)) :=
  twoProducts_congr (V_main_arg2 m c) (V_main_arg2 m c) (V_v38 m c) (V_v41 m c) (V_main_arg9 m c)

theorem fourth_args (c : Dev nD) : fourth m c
    = twoProducts (m ((c : Thread nD τ).loc main_arg3)) (m ((c : Thread nD τ).loc main_arg3))
        (transposed (m ((c : Thread nD τ).loc main_arg10))) (transposed (m ((c : Thread nD τ).loc main_arg12))) (m ((c : Thread nD τ).loc main_arg11)) :=
  twoProducts_congr (V_main_arg3 m c) (V_main_arg3 m c) (V_v39 m c) (V_v40 m c) (V_main_arg11 m c)

/-- The kernel's run: each result a two-product array of the arguments, the arguments unchanged. -/
theorem run : θ_run defs (onTc (τ := τ) (main (F := Ideal))) ⟨m, fun _ => 0, ρ⟩ fun r => ∀ c : Dev nD,
      r.2.mem ((c : Thread nD τ).loc main_v42_0)
          = twoProducts (m ((c : Thread nD τ).loc main_arg0)) (meanAgg (m ((c : Thread nD τ).loc main_arg1)) (m ((c : Thread nD τ).loc main_arg6)) (m ((c : Thread nD τ).loc main_arg7)))
              (transposed (m ((c : Thread nD τ).loc main_arg8))) (transposed (m ((c : Thread nD τ).loc main_arg13))) (m ((c : Thread nD τ).loc main_arg9))
      ∧ r.2.mem ((c : Thread nD τ).loc main_v42_1)
          = twoProducts (m ((c : Thread nD τ).loc main_arg1)) (meanAgg (m ((c : Thread nD τ).loc main_arg0)) (m ((c : Thread nD τ).loc main_arg4)) (m ((c : Thread nD τ).loc main_arg5)))
              (transposed (m ((c : Thread nD τ).loc main_arg10))) (transposed (m ((c : Thread nD τ).loc main_arg12))) (m ((c : Thread nD τ).loc main_arg11))
      ∧ r.2.mem ((c : Thread nD τ).loc main_v42_2)
          = twoProducts (m ((c : Thread nD τ).loc main_arg2)) (m ((c : Thread nD τ).loc main_arg2))
              (transposed (m ((c : Thread nD τ).loc main_arg8))) (transposed (m ((c : Thread nD τ).loc main_arg13))) (m ((c : Thread nD τ).loc main_arg9))
      ∧ r.2.mem ((c : Thread nD τ).loc main_v42_3)
          = twoProducts (m ((c : Thread nD τ).loc main_arg3)) (m ((c : Thread nD τ).loc main_arg3))
              (transposed (m ((c : Thread nD τ).loc main_arg10))) (transposed (m ((c : Thread nD τ).loc main_arg12))) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c =>
      ⟨((h c).1.trans (final12 m c)).trans (first_args m c),
        ((h c).2.1.trans (final13 m c)).trans (second_args m c),
        ((h c).2.2.1.trans (final14 m c)).trans (third_args m c),
        ((h c).2.2.2.1.trans (final15 m c)).trans (fourth_args m c),
        (h c).2.2.2.2⟩)
    (Cert.KernelIdeal.Value.run_blocks m ρ)

end Cert.KernelIdeal.HostArrays

end
-- ==== Proof.ReferenceArrays.lean ====
/-
  The reference's four results, each as one two-product array of the arguments.

  The reference computes each result as (x·wᵀ + b) + y·uᵀ: the product with the transposed root weight, the bias
  broadcast to one row and down the rows and added, then the product of the second operand (the mean aggregate
  for the first two results, the row operand again for the twin results) with the transposed relation weight
  added last. Entry by entry this is the two-product value of Proof/TwoProducts.lean with the three summands in
  another order (`hostForm_apply`). The mean aggregate and the transposes are the same host operations, in the
  same order and with the same constants, as before the kernel's launch.
-/
import proofs.«163140_j34548716929228_1_alg».proof.Proof.Gen.ReferenceIdeal.Run
import proofs.«163140_j34548716929228_1_alg».proof.Proof.TwoProducts

noncomputable section

namespace Cert.ReferenceIdeal.HostArrays

open Cert.ReferenceIdeal Cert.ReferenceIdeal.Gen Idealize.ShloMosaic Idealize.ShloMosaic.TcCoe Idealize.SL.Sem
open Idealize.ShloMosaic.StableHlo Idealize.ShloMosaic.ValueIdx Cert.TwoProducts

/-- The mean of the rows x[src[e]] over the edges e with dst[e] = r, for every row r. -/
def meanAgg {F : FTy → Type} [FloatOps F] (x : (⟨S50000x128, .f32⟩ : BufTy).Contents (Elt F))
    (src dst : (⟨S600000, .i32⟩ : BufTy).Contents (Elt F)) : (⟨S50000x128, .f32⟩ : BufTy).Contents (Elt F) :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst)
      (Host.gather gather_S50000x128_S600000x1_S600000x128_1_0_n_n_0_1_1128 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S600000x1_S600000_n_0_0_1
            (broadcastInDim S50000 ![] bcast_S_S50000 (constant S_ .f32 0x00000000#32))
            (broadcastInDim S600000x1 ![0] bcast_S600000_S600000x1_0 dst)
            (broadcastInDim S600000 ![] bcast_S_S600000 (constant S_ .f32 0x3F800000#32)))
          (broadcastInDim S50000 ![] bcast_S_S50000 (constant S_ .f32 0x3F800000#32)))))

/-- A [128, 128] weight matrix transposed. -/
def transposed {F : FTy → Type} [FloatOps F] (w : (⟨S128x128, .f32⟩ : BufTy).Contents (Elt F)) :
    (⟨S128x128, .f32⟩ : BufTy).Contents (Elt F) :=
  transpose S128x128 [1, 0] w transposes_S128x128_S128x128_1_0

/-- The host's spelling of one result, (x·w + b) + y·u with the bias broadcast in two steps, is the two-product
    array. -/
theorem hostArray (x y : FVec Ideal S50000x128 .f32) (w u : FVec Ideal S128x128 .f32) (b : FVec Ideal S128 .f32) :
    addf (addf (Host.dotGeneral dot_S50000x128_S128x128_S50000x128_1_0_0_1_n_n none x w)
               (broadcastInDim S50000x128 ![0, 1] bcast_S1x128_S50000x128_0_1
                 (broadcastInDim S1x128 ![1] bcast_S128_S1x128_1 b)))
         (Host.dotGeneral dot_S50000x128_S128x128_S50000x128_1_0_0_1_n_n none y u)
      = twoProducts x y w u b :=
  ext_entries _ _ fun p q => hostForm_apply (A := 50000) (K := 128) (C := 128) x y w u b _ _ p q

/-- The reference's run: each result a two-product array of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
          = twoProducts (m ((c.tc : Thread nD τ).loc main_arg0)) (meanAgg (m ((c.tc : Thread nD τ).loc main_arg1)) (m ((c.tc : Thread nD τ).loc main_arg6)) (m ((c.tc : Thread nD τ).loc main_arg7)))
              (transposed (m ((c.tc : Thread nD τ).loc main_arg8))) (transposed (m ((c.tc : Thread nD τ).loc main_arg13))) (m ((c.tc : Thread nD τ).loc main_arg9))
      ∧ r.2.mem ((c.tc : Thread nD τ).loc main_v41)
          = twoProducts (m ((c.tc : Thread nD τ).loc main_arg1)) (meanAgg (m ((c.tc : Thread nD τ).loc main_arg0)) (m ((c.tc : Thread nD τ).loc main_arg4)) (m ((c.tc : Thread nD τ).loc main_arg5)))
              (transposed (m ((c.tc : Thread nD τ).loc main_arg10))) (transposed (m ((c.tc : Thread nD τ).loc main_arg12))) (m ((c.tc : Thread nD τ).loc main_arg11))
      ∧ r.2.mem ((c.tc : Thread nD τ).loc main_v69)
          = twoProducts (m ((c.tc : Thread nD τ).loc main_arg2)) (m ((c.tc : Thread nD τ).loc main_arg2))
              (transposed (m ((c.tc : Thread nD τ).loc main_arg8))) (transposed (m ((c.tc : Thread nD τ).loc main_arg13))) (m ((c.tc : Thread nD τ).loc main_arg9))
      ∧ r.2.mem ((c.tc : Thread nD τ).loc main_v44)
          = twoProducts (m ((c.tc : Thread nD τ).loc main_arg3)) (m ((c.tc : Thread nD τ).loc main_arg3))
              (transposed (m ((c.tc : Thread nD τ).loc main_arg10))) (transposed (m ((c.tc : Thread nD τ).loc main_arg12))) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c =>
      ⟨(h c).1.trans (hostArray _ _ _ _ _),
        (h c).2.1.trans (hostArray _ _ _ _ _),
        (h c).2.2.1.trans (hostArray _ _ _ _ _),
        (h c).2.2.2.1.trans (hostArray _ _ _ _ _),
        (h c).2.2.2.2⟩)
    (Cert.ReferenceIdeal.Value.run (F := Ideal) m ρ)

end Cert.ReferenceIdeal.HostArrays

end
-- ==== Proof.lean ====
/-
  The kernel and the reference compute the same four arrays.

  Both programs first form, on the host, the mean aggregate of each relation (gathered source rows summed per
  destination row over max(count, 1)) and the transposes of the four weight matrices — the same operations with the
  same constants. The kernel then stores, block of 2000 rows by block, x·w + y·u + b with both products taken first
  and the bias row added last; the reference computes (x·w + b) + y·u over the whole arrays. At the ideal values
  (a change of float format is the identity, a product into a zero accumulator is the plain contraction) both are,
  entry by entry,

      ∑ k, x[p, k] · w[k, q]  +  ∑ k, y[p, k] · u[k, q]  +  b[q]

  with the three summands grouped differently; addition of extended reals is commutative and associative without
  any side condition, so the precondition (finite inputs) is never opened, and the index arrays may hold anything:
  both sides apply the same gather and scatter to them.

  The frames of the two kernel programs are the generated ones; the reference's frame is its generated run with the
  results dropped; the idealization rewrote nothing, so its ledger is empty.
-/
import proofs.«163140_j34548716929228_1_alg».proof.Defs
import proofs.«163140_j34548716929228_1_alg».proof.Proof.Gen.Kernel
import proofs.«163140_j34548716929228_1_alg».proof.Proof.Gen.Kernel.Skeleton
import proofs.«163140_j34548716929228_1_alg».proof.Proof.Gen.Kernel.Launch
import proofs.«163140_j34548716929228_1_alg».proof.Proof.Gen.Kernel.Points
import proofs.«163140_j34548716929228_1_alg».proof.Proof.Gen.Kernel.Frame
import proofs.«163140_j34548716929228_1_alg».proof.Proof.Gen.KernelIdeal
import proofs.«163140_j34548716929228_1_alg».proof.Proof.Gen.KernelIdeal.Skeleton
import proofs.«163140_j34548716929228_1_alg».proof.Proof.Gen.KernelIdeal.Launch
import proofs.«163140_j34548716929228_1_alg».proof.Proof.Gen.KernelIdeal.Points
import proofs.«163140_j34548716929228_1_alg».proof.Proof.Gen.KernelIdeal.Frame
import proofs.«163140_j34548716929228_1_alg».proof.Proof.Gen.ReferenceIdeal
import proofs.«163140_j34548716929228_1_alg».proof.Proof.Gen.Pre_finite_inputs
import proofs.«163140_j34548716929228_1_alg».proof.Proof.Gen.KernelIdeal.Value
import proofs.«163140_j34548716929228_1_alg».proof.Proof.Gen.ReferenceIdeal.Run
import proofs.«163140_j34548716929228_1_alg».proof.Proof.KernelHost
import proofs.«163140_j34548716929228_1_alg».proof.Proof.ReferenceArrays
import Idealize.ShloMosaic.Adequacy
import Idealize.ShloMosaic.Init

noncomputable section

namespace Cert.Proof

open Idealize.ShloMosaic Idealize.SL.Sem Cert.TwoProducts

/-! ## The two programs' host functions are the same functions -/

/-- The mean aggregate of the reference is the kernel program's: the same operations over the same records. -/
theorem meanAgg_eq (x : (⟨Cert.KernelIdeal.S50000x128, .f32⟩ : BufTy).Contents (Elt Ideal))
    (src dst : (⟨Cert.KernelIdeal.S600000, .i32⟩ : BufTy).Contents (Elt Ideal)) :
    Cert.ReferenceIdeal.HostArrays.meanAgg x src dst = Cert.KernelIdeal.HostArrays.meanAgg x src dst := rfl

/-- So is the transpose. -/
theorem transposed_eq (w : (⟨Cert.KernelIdeal.S128x128, .f32⟩ : BufTy).Contents (Elt Ideal)) :
    Cert.ReferenceIdeal.HostArrays.transposed w = Cert.KernelIdeal.HostArrays.transposed w := rfl

/-- One result of the reference, over the kernel program's arguments, is the kernel's. -/
theorem result_eq (x y : (⟨Cert.KernelIdeal.S50000x128, .f32⟩ : BufTy).Contents (Elt Ideal))
    (src dst : (⟨Cert.KernelIdeal.S600000, .i32⟩ : BufTy).Contents (Elt Ideal))
    (w u : (⟨Cert.KernelIdeal.S128x128, .f32⟩ : BufTy).Contents (Elt Ideal))
    (b : (⟨Cert.KernelIdeal.S128, .f32⟩ : BufTy).Contents (Elt Ideal)) :
    twoProducts x (Cert.ReferenceIdeal.HostArrays.meanAgg y src dst) (Cert.ReferenceIdeal.HostArrays.transposed w)
        (Cert.ReferenceIdeal.HostArrays.transposed u) b
      = twoProducts x (Cert.KernelIdeal.HostArrays.meanAgg y src dst) (Cert.KernelIdeal.HostArrays.transposed w)
        (Cert.KernelIdeal.HostArrays.transposed u) b :=
  twoProducts_congr rfl (meanAgg_eq y src dst) (transposed_eq w) (transposed_eq u) rfl

/-- A twin result (the row operand against both weights). -/
theorem twin_eq (x : (⟨Cert.KernelIdeal.S50000x128, .f32⟩ : BufTy).Contents (Elt Ideal))
    (w u : (⟨Cert.KernelIdeal.S128x128, .f32⟩ : BufTy).Contents (Elt Ideal))
    (b : (⟨Cert.KernelIdeal.S128, .f32⟩ : BufTy).Contents (Elt Ideal)) :
    twoProducts x x (Cert.ReferenceIdeal.HostArrays.transposed w) (Cert.ReferenceIdeal.HostArrays.transposed u) b
      = twoProducts x x (Cert.KernelIdeal.HostArrays.transposed w) (Cert.KernelIdeal.HostArrays.transposed u) b :=
  twoProducts_congr rfl rfl (transposed_eq w) (transposed_eq u) rfl

/-! ## The claims -/

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2)
    (Cert.ReferenceIdeal.Value.run (F := Ideal) m ρ)

theorem preserves : Cert.preserves_Kernel_KernelIdeal := trivial

/-- From memories that agree on the arguments both programs end with the same four arrays. -/
theorem algebraic : Cert.algebraic_KernelIdeal_ReferenceIdeal := by
  intro m ρ m' ρ' _ hagree
  refine ⟨_, _, _, _, Cert.KernelIdeal.HostArrays.run m ρ, ?_⟩
  refine (θ_run Cert.ReferenceIdeal.defs _ _).mono (fun _ h c => ?_) (Cert.ReferenceIdeal.HostArrays.run m' ρ')
  obtain ⟨a0, a1, a2, a3, a4, a5, a6, a7, a8, a9, a10, a11, a12, a13⟩ := hagree c
  refine ⟨(h c).1.trans ?_, (h c).2.1.trans ?_, (h c).2.2.1.trans ?_, (h c).2.2.2.1.trans ?_, (h c).2.2.2.2⟩
  · rw [a0, a1, a6, a7, a8, a13, a9]
    exact result_eq _ _ _ _ _ _ _
  · rw [a1, a0, a4, a5, a10, a12, a11]
    exact result_eq _ _ _ _ _ _ _
  · rw [a2, a8, a13, a9]
    exact twin_eq _ _ _ _
  · rw [a3, a10, a12, a11]
    exact twin_eq _ _ _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
